-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S352256x1 : Shape := ⟨2, ![352256, 1]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel
  bcast_S_S352256x1 : S_.BroadcastsInDim S352256x1 (![] : Fin 0 → Fin S352256x1.rank)
  reducesTo_S352256x1_S_d0_1 : S352256x1.ReducesTo [0, 1] S_

variable [Facts]

def fn {F : FTy → Type} [FloatOps F] (main_arg0 : FVec F S4096x11008 .f32) (main_arg1 : FVec F S352256x1 .f32) (main_arg2 : FVec F S352256x1 .f32) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  let main_v4 : FVec F S352256x1 .f32 := Host.absf main_arg1
  let main_cst_0 : FVec F S_ .f32 := constant S_ .f32 0x7F800000#32
  let main_v5 : FVec F S352256x1 .f32 := broadcastInDim S352256x1 ![] bcast_S_S352256x1 main_cst_0
  let main_v6 : IVec S352256x1 1 := cmpf .olt main_v4 main_v5
  let main_c_1 : IVec S_ 1 := constantI S_ 1 1#1
  let main_v7 : IVec S_ 1 := (fun x v => Host.reduce IntOp.andi x v reducesTo_S352256x1_S_d0_1 h_S_) main_v6 main_c_1
  let main_v8 : IVec S_ 1 := andi main_v3 main_v7
  let main_v9 : FVec F S352256x1 .f32 := Host.absf main_arg2
  let main_cst_2 : FVec F S_ .f32 := constant S_ .f32 0x7F800000#32
  let main_v10 : FVec F S352256x1 .f32 := broadcastInDim S352256x1 ![] bcast_S_S352256x1 main_cst_2
  let main_v11 : IVec S352256x1 1 := cmpf .olt main_v9 main_v10
  let main_c_3 : IVec S_ 1 := constantI S_ 1 1#1
  let main_v12 : IVec S_ 1 := (fun x v => Host.reduce IntOp.andi x v reducesTo_S352256x1_S_d0_1 h_S_) main_v11 main_c_3
  let main_v13 : IVec S_ 1 := andi main_v8 main_v12
  main_v13
-- ==== Kernel.lean ====
abbrev S4096x11008 : Shape := ⟨2, ![4096, 11008]⟩
abbrev S352256x1 : Shape := ⟨2, ![352256, 1]⟩
abbrev S4096x86 : Shape := ⟨2, ![4096, 86]⟩
abbrev S64x11008 : Shape := ⟨2, ![64, 11008]⟩
abbrev S64x86 : Shape := ⟨2, ![64, 86]⟩
abbrev S64x86x128 : Shape := ⟨3, ![64, 86, 128]⟩
abbrev S64x86x1 : Shape := ⟨3, ![64, 86, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S4096x86, .f32⟩
  | .hbm, ⟨4, _⟩ => ⟨S4096x86, .f32⟩
  | .hbm, ⟨5, _⟩ => ⟨S4096x11008, .f32⟩
  | .local _ .vmem, ⟨0, _⟩ => ⟨S64x11008, .f32⟩
  | .local _ .vmem, ⟨1, _⟩ => ⟨S64x11008, .f32⟩
  | .local _ .vmem, ⟨2, _⟩ => ⟨S64x86, .f32⟩
  | .local _ .vmem, ⟨3, _⟩ => ⟨S64x86, .f32⟩
  | .local _ .vmem, ⟨4, _⟩ => ⟨S64x86, .f32⟩
  | .local _ .vmem, ⟨5, _⟩ => ⟨S64x86, .f32⟩
  | .local _ .vmem, ⟨6, _⟩ => ⟨S64x11008, .f32⟩
  | .local _ .vmem, ⟨7, _⟩ => ⟨S64x11008, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x86 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x86 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S352256x1_S4096x86 : S352256x1.ShapeCasts S4096x86
  inb_S64x11008_S64x11008_0_0 : ∀ a, (![0, 0] : Fin 2 → Nat) a + S64x11008.size a ≤ S64x11008.size a
  h_S64x11008 : 0 < S64x11008.numel
  shapeCasts_S64x11008_S64x86x128 : S64x11008.ShapeCasts S64x86x128
  reduces_S64x86x128_S64x86 : S64x86x128.Reduces [2] S64x86
  inb_S64x86_S64x86_0_0 : ∀ a, (![0, 0] : Fin 2 → Nat) a + S64x86.size a ≤ S64x86.size a
  h_S64x86 : 0 < S64x86.numel
  shapeCasts_S64x86_S64x86 : S64x86.ShapeCasts S64x86
  shapeCasts_S64x86_S64x86x1 : S64x86.ShapeCasts S64x86x1
  shapeCasts_S64x86x1_S64x86x1 : S64x86x1.ShapeCasts S64x86x1
  broadcasts_S64x86x1_S64x86x128 : S64x86x1.Broadcasts S64x86x128
  shapeCasts_S64x86x128_S64x11008 : S64x86x128.ShapeCasts S64x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x11008.size a ≤ S4096x11008.size a
  hwx0_0 : ∀ i : grid0.Coords, EltTy.bits .f32 = 32 ∨ (Rect.block (s := S4096x11008) S64x11008.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x86.size a ≤ S4096x86.size a
  hwx0_1 : ∀ i : grid0.Coords, EltTy.bits .f32 = 32 ∨ (Rect.block (s := S4096x86) S64x86.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x86.size a ≤ S4096x86.size a
  hwx0_2 : ∀ i : grid0.Coords, EltTy.bits .f32 = 32 ∨ (Rect.block (s := S4096x86) S64x86.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x11008.size a ≤ S4096x11008.size a
  hwx0_3 : ∀ i : grid0.Coords, EltTy.bits .f32 = 32 ∨ (Rect.block (s := S4096x11008) S64x11008.size (cc0_transform_3 i) (hinb0_3 i)).WholeWords (EltTy.packing .f32)

variable [Facts₀]

abbrev win0_0 : Pipeline.Window sig grid0 :=
  Pipeline.Window.ofSpec (Memref.whole main_arg0) S64x11008.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x86.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x86.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x11008.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩
abbrev S352256 : Shape := ⟨1, ![352256]⟩

abbrev nBuf : Space → Nat
  | .hbm => 71
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S_, .f32⟩
  | .hbm, ⟨5, _⟩ => ⟨S352256, .f32⟩
  | .hbm, ⟨6, _⟩ => ⟨S352256x1, .f32⟩
  | .hbm, ⟨7, _⟩ => ⟨S_, .f32⟩
  | .hbm, ⟨8, _⟩ => ⟨S352256, .f32⟩
  | .hbm, ⟨9, _⟩ => ⟨S352256x1, .f32⟩
  | .hbm, ⟨10, _⟩ => ⟨S352256x1, .f32⟩
  | .hbm, ⟨11, _⟩ => ⟨S352256x1, .f32⟩
  | .hbm, ⟨12, _⟩ => ⟨S_, .f32⟩
  | .hbm, ⟨13, _⟩ => ⟨S352256x1, .f32⟩
  | .hbm, ⟨14, _⟩ => ⟨S352256x1, .f32⟩
  | .hbm, ⟨15, _⟩ => ⟨S_, .f32⟩
  | .hbm, ⟨16, _⟩ => ⟨S352256x1, .f32⟩
  | .hbm, ⟨17, _⟩ => ⟨S352256x1, .f32⟩
  | .hbm, ⟨18, _⟩ => ⟨S352256x1, .f32⟩
  | .hbm, ⟨19, _⟩ => ⟨S352256x1, .f32⟩
  | .hbm, ⟨20, _⟩ => ⟨S352256x1, .f32⟩
  | .hbm, ⟨21, _⟩ => ⟨S_, .f32⟩
  | .hbm, ⟨22, _⟩ => ⟨S352256x1, .f32⟩
  | .hbm, ⟨23, _⟩ => ⟨S352256x1, .f32⟩
  | .hbm, ⟨24, _⟩ => ⟨S_, .f32⟩
  | .hbm, ⟨25, _⟩ => ⟨S352256x1, .f32⟩
  | .hbm, ⟨26, _⟩ => ⟨S352256x1, .f32⟩
  | .hbm, ⟨27, _⟩ => ⟨S352256x1, .f32⟩
  | .hbm, ⟨28, _⟩ => ⟨S352256x1, .f32⟩
  | .hbm, ⟨29, _⟩ => ⟨S_, .f32⟩
  | .hbm, ⟨30, _⟩ => ⟨S352256x1, .f32⟩
  | .hbm, ⟨31, _⟩ => ⟨S352256x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S352256x1, .f32⟩
  | .hbm, ⟨36, _⟩ => ⟨S352256x1, .f32⟩
  | .hbm, ⟨37, _⟩ => ⟨S_, .f32⟩
  | .hbm, ⟨38, _⟩ => ⟨S352256x1, .f32⟩
  | .hbm, ⟨39, _⟩ => ⟨S352256x1, .f32⟩
  | .hbm, ⟨40, _⟩ => ⟨S352256x1, .f32⟩
  | .hbm, ⟨41, _⟩ => ⟨S352256x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S352256x1, .f32⟩
  | .hbm, ⟨46, _⟩ => ⟨S352256x1, .f32⟩
  | .hbm, ⟨47, _⟩ => ⟨S_, .f32⟩
  | .hbm, ⟨48, _⟩ => ⟨S352256x1, .f32⟩
  | .hbm, ⟨49, _⟩ => ⟨S352256x1, .f32⟩
  | .hbm, ⟨50, _⟩ => ⟨S352256x1, .f32⟩
  | .hbm, ⟨51, _⟩ => ⟨S352256x128, .f32⟩
  | .hbm, ⟨52, _⟩ => ⟨S352256x128, .f32⟩
  | .hbm, ⟨53, _⟩ => ⟨S352256x128, .f32⟩
  | .hbm, ⟨54, _⟩ => ⟨S352256x128, .f32⟩
  | .hbm, ⟨55, _⟩ => ⟨S352256x128, .f32⟩
  | .hbm, ⟨56, _⟩ => ⟨S352256x128, .f32⟩
  | .hbm, ⟨57, _⟩ => ⟨S352256x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S352256x128, .f32⟩
  | .hbm, ⟨62, _⟩ => ⟨S352256x128, .f32⟩
  | .hbm, ⟨63, _⟩ => ⟨S_, .f32⟩
  | .hbm, ⟨64, _⟩ => ⟨S352256x128, .f32⟩
  | .hbm, ⟨65, _⟩ => ⟨S352256x128, .f32⟩
  | .hbm, ⟨66, _⟩ => ⟨S352256x128, .f32⟩
  | .hbm, ⟨67, _⟩ => ⟨S352256x128, .f32⟩
  | .hbm, ⟨68, _⟩ => ⟨S352256x128, .f32⟩
  | .hbm, ⟨69, _⟩ => ⟨S352256x128, .f32⟩
  | .hbm, ⟨70, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_cst_7 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_cst_11 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]

class Facts₀ : Prop where
  shapeCasts_S4096x11008_S352256x128 : S4096x11008.ShapeCasts S352256x128
  reducesTo_S352256x128_S352256_d1 : S352256x128.ReducesTo [1] S352256
  h_S_ : 0 < S_.numel
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S4096x11008 : S352256x128.ShapeCasts S4096x11008

variable [Facts₀]

class Facts : Prop extends Facts₀ where

variable [Facts]
-- ==== Proof.QuantSpec.lean ====
/-
  Per-group asymmetric 4-bit fake quantization, as a function on the extended reals.

  An array `x` of 4096 rows and 11008 columns is cut into groups of 128 consecutive columns: row `r` holds 86
  groups, and group `g` of row `r` is group number `r * 86 + g` of the 352256 groups in row-major order.  Each group
  has two learnable bound factors `u`, `l`.  With `hi`, `lo` the largest and smallest entry of the group,

      mx = σ(u) · hi,   mn = σ(l) · lo                         (σ the logistic function)
      s  = clip((mx − mn) / 15, 1e-4, 1e4)                      (the scale)
      z  = round(clip(−mn / s, −1e4, 1e4))                      (the zero point; round to nearest, ties to even)
      y  = (clip(round(x / s) + z, 0, 15) − z) · s              (quantize, clip to four bits, dequantize)

  where clip(t, a, b) = min b (max a t).  The scale always lies between the two positive finite clip bounds, whatever
  the group holds, so it is a positive real; dividing a real entry by it gives a real.  That is the one place where a
  finite input matters: the straight-through form `q + (round q − q)` of the rounding is `round q` for a real `q`,
  and is not for an infinite one.
-/
import Idealize.ShloMosaic.PureOps.Ideal
import Idealize.ShloMosaic.PureOps.Ideal.Laws
import Idealize.ShloMosaic.Lib.ValueIdx

noncomputable section

namespace Cert.GroupQuant

open Idealize.ShloMosaic Idealize.ShloMosaic.ValueIdx

/-! ## The constants, as the patterns both programs spell -/

/-- The lower clip bound of the scale: the binary32 number nearest `1e-4`. -/
abbrev cLo : EReal := Ideal.ofBits .f32 0x38D1B717#32
/-- The upper clip bound `1e4`. -/
abbrev cHi : EReal := Ideal.ofBits .f32 0x461C4000#32
/-- `-1e4`. -/
abbrev cNegHi : EReal := Ideal.ofBits .f32 0xC61C4000#32
/-- The largest four-bit level, `15`. -/
abbrev cQ : EReal := Ideal.ofBits .f32 0x41700000#32
/-- The smallest level, `0`. -/
abbrev cZ : EReal := Ideal.ofBits .f32 0x00000000#32
/-- The neutral elements of the group minimum and maximum: `+∞` and `-∞` as patterns. -/
abbrev cTop : EReal := Ideal.ofBits .f32 0x7F800000#32
abbrev cBot : EReal := Ideal.ofBits .f32 0xFF800000#32

/-- Rounding to the nearest integer, ties to even, the infinities fixed. -/
abbrev rnd : EReal → EReal := Ideal.liftRound Ideal.roundHalfEven

/-- `1e-4` as binary32 is the positive real `13743895 · 2⁻³⁷`. -/
theorem cLo_eq : cLo = ((13743895 * (2 : ℝ) ^ (-37 : ℤ) : ℝ) : EReal) := by
  simp [cLo, Ideal.ofBits, Ideal.ieee, -EReal.coe_mul]

/-- `1e4` as binary32 is the real `10000`. -/
theorem cHi_eq : cHi = ((10000 : ℝ) : EReal) := by
  simp [cHi, Ideal.ofBits, Ideal.ieee, -EReal.coe_mul]; norm_num

theorem cLo_pos : (0 : EReal) < cLo := by
  rw [cLo_eq]; exact_mod_cast (by positivity : (0 : ℝ) < 13743895 * (2 : ℝ) ^ (-37 : ℤ))

theorem cHi_pos : (0 : EReal) < cHi := by
  rw [cHi_eq]; exact_mod_cast (by norm_num : (0 : ℝ) < 10000)

theorem cHi_lt_top : cHi < ⊤ := by rw [cHi_eq]; exact EReal.coe_lt_top _

/-! ## One entry -/

/-- The scale of a group from its scaled minimum and maximum. -/
def scale (mn mx : EReal) : EReal := min cHi (max cLo (Ideal.div (mx - mn) cQ))

/-- The zero point of a group from its scaled minimum and its scale. -/
def zeroPt (mn s : EReal) : EReal := rnd (min cHi (max cNegHi (Ideal.div (-mn) s)))

/-- One entry quantized to four bits and mapped back, at scale `s` and zero point `z`. -/
def dequant (x s z : EReal) : EReal := (min cQ (max cZ (rnd (Ideal.div x s) + z)) - z) * s

/-- One entry `x` of a group with extremes `lo`, `hi` and bound factors `u` (upper), `l` (lower). -/
def quant (x lo hi u l : EReal) : EReal :=
  dequant x (scale (Ideal.logistic l * lo) (Ideal.logistic u * hi))
    (zeroPt (Ideal.logistic l * lo) (scale (Ideal.logistic l * lo) (Ideal.logistic u * hi)))

/-- The scale is positive: it is at least the smaller of the two positive clip bounds. -/
theorem scale_pos (mn mx : EReal) : 0 < scale mn mx :=
  lt_min cHi_pos (lt_max_of_lt_left cLo_pos)

/-- The scale is finite: it is at most `1e4`. -/
theorem scale_lt_top (mn mx : EReal) : scale mn mx < ⊤ :=
  lt_of_le_of_lt (min_le_left _ _) cHi_lt_top

/-- A real divided by a positive finite extended real is a real. -/
theorem div_real {s : EReal} (hs : 0 < s) (hs' : s < ⊤) (x : ℝ) : ∃ q : ℝ, Ideal.div (x : EReal) s = (q : EReal) := by
  have hb : s ≠ ⊥ := ne_of_gt (lt_trans EReal.bot_lt_zero hs)
  lift s to ℝ using ⟨ne_of_lt hs', hb⟩
  have h0 : s ≠ 0 := by
    intro h; rw [h] at hs; exact lt_irrefl _ hs
  exact ⟨x * (1 / s), by rw [Ideal.div_coe h0, ← EReal.coe_mul]⟩

/-- THE STRAIGHT-THROUGH ROUNDING: for a real entry and a positive finite scale, `q + (round q − q)` is `round q`
    (real arithmetic; at an infinite `q` the left side would be `-∞`). -/
theorem ste {s : EReal} (hs : 0 < s) (hs' : s < ⊤) (x : ℝ) :
    Ideal.div (x : EReal) s + (rnd (Ideal.div (x : EReal) s) - Ideal.div (x : EReal) s) = rnd (Ideal.div (x : EReal) s) := by
  obtain ⟨q, hq⟩ := div_real hs hs' x
  rw [hq]
  show (q : EReal) + (((Ideal.roundHalfEven q : ℝ) : EReal) - (q : EReal)) = ((Ideal.roundHalfEven q : ℝ) : EReal)
  rw [← EReal.coe_sub, ← EReal.coe_add]
  congr 1; ring

/-- The logistic function as the host spells it: one over one plus the exponential of the negation, the ones the
    pattern of `1.0`. -/
theorem logistic_spelled (x : EReal) :
    Ideal.div (Ideal.ofBits .f32 0x3F800000#32) (Ideal.ofBits .f32 0x3F800000#32 + Ideal.exp (-x)) = Ideal.logistic x := by
  have h1 : Ideal.ofBits .f32 0x3F800000#32 = 1 := by
    simp [Ideal.ofBits, Ideal.ieee, -EReal.coe_mul]; norm_num
  rw [h1]; rfl

/-- Zero minus a value is its negation, on the extended reals too. -/
theorem zero_pattern_sub (x : EReal) : cZ - x = -x := by
  rw [show cZ = 0 from Ideal.ofBits_zero_f32, zero_sub]

/-! ## The whole array -/

/-- The number of the group that column `c` of row `r` lies in. -/
def grp (r : Fin 4096) (c : Fin 11008) : Fin 352256 :=
  ⟨r.val * 86 + c.val / 128, by have := r.isLt; have := c.isLt; omega⟩

/-- Column `l` of the group that column `c` lies in. -/
def laneCol (c : Fin 11008) (l : Fin 128) : Fin 11008 :=
  ⟨c.val / 128 * 128 + l.val, by have := c.isLt; have := l.isLt; omega⟩

/-- The smallest and the largest entry of the group of `(r, c)`, as folds from the neutral patterns. -/
def grpMin (x : (⟨2, ![4096, 11008]⟩ : Shape).Idx → EReal) (r : Fin 4096) (c : Fin 11008) : EReal :=
  (Finset.univ : Finset (Fin 128)).fold min cTop fun l => x (ix2 r (laneCol c l))
def grpMax (x : (⟨2, ![4096, 11008]⟩ : Shape).Idx → EReal) (r : Fin 4096) (c : Fin 11008) : EReal :=
  (Finset.univ : Finset (Fin 128)).fold max cBot fun l => x (ix2 r (laneCol c l))

/-- THE RESULT: every entry quantized against its own group's extremes and bound factors. -/
def G (x : (⟨2, ![4096, 11008]⟩ : Shape).Idx → EReal) (up low : (⟨2, ![352256, 1]⟩ : Shape).Idx → EReal) :
    (⟨2, ![4096, 11008]⟩ : Shape).Idx → EReal := fun i =>
  quant (x i) (grpMin x (i 0) (i 1)) (grpMax x (i 0) (i 1))
    (up (ix2 (grp (i 0) (i 1)) (0 : Fin 1))) (low (ix2 (grp (i 0) (i 1)) (0 : Fin 1)))

end Cert.GroupQuant

end
-- ==== Proof.TileReads.lean ====
/-
  One tile of 64 rows, read entry by entry.

  A tile is 64 full rows of 11008 columns.  Seen as 64 × 86 × 128 it is 86 groups of 128 lanes per row: entry
  `(p, g, l)` of the cube is entry `(p, g·128 + l)` of the tile, and back, entry `(p, q)` of the tile is entry
  `(p, q / 128, q % 128)` of the cube.  A per-group quantity (one number per `(p, g)`) becomes a cube by repeating it
  along the lanes (a unit lane axis is added first, then stretched to 128).  The minimum and the maximum over the lanes of a group are folds of `min` and `max` from their
  neutral elements over the 128 lanes.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.GroupQuant

open Idealize.ShloMosaic Idealize.ShloMosaic.ValueIdx

/-! ## Folds of the float minimum and maximum are folds of `min` and `max` -/

theorem fold_minimumf {ι : Type} (s : Finset ι) (b : EReal) (f : ι → EReal) :
    s.fold (FloatOps.minimumf (F := Ideal) (φ := .f32)) b f = s.fold min b f := rfl

theorem fold_maximumf {ι : Type} (s : Finset ι) (b : EReal) (f : ι → EReal) :
    s.fold (FloatOps.maximumf (F := Ideal) (φ := .f32)) b f = s.fold max b f := rfl

/-! ## The tile as a cube of groups and lanes, and back -/

/-- Column `g·128 + l` of a row: lane `l` of group `g`. -/
def colOf (g : Fin 86) (l : Fin 128) : Fin 11008 := ⟨g.val * 128 + l.val, by have := g.isLt; have := l.isLt; omega⟩

/-- The group of a column, and its lane within the group. -/
def grpOf (q : Fin 11008) : Fin 86 := ⟨q.val / 128, by have := q.isLt; omega⟩
def laneOf (q : Fin 11008) : Fin 128 := ⟨q.val % 128, Nat.mod_lt _ (by decide)⟩

/-- The tile cut into groups, at `(p, g, l)`. -/
theorem cube_apply {α : Type} (v : (⟨2, ![64, 11008]⟩ : Shape).Idx → α)
    (h : (⟨2, ![64, 11008]⟩ : Shape).ShapeCasts ⟨3, ![64, 86, 128]⟩) (p : Fin 64) (g : Fin 86) (l : Fin 128) :
    shapeCast ⟨3, ![64, 86, 128]⟩ v h (ix3 p g l) = v (ix2 p (colOf g l)) :=
  shapeCast_apply v h (ix3 p g l) (ix2 p (colOf g l)) (by
    rw [Shape.rowMajor_val_two, Shape.rowMajor_val_three]
    show p.val * 11008 + (g.val * 128 + l.val) = (p.val * 86 + g.val) * 128 + l.val
    omega)

/-- The cube laid back out as a tile, at `(p, q)`. -/
theorem tile_apply {α : Type} (w : (⟨3, ![64, 86, 128]⟩ : Shape).Idx → α)
    (h : (⟨3, ![64, 86, 128]⟩ : Shape).ShapeCasts ⟨2, ![64, 11008]⟩) (p : Fin 64) (q : Fin 11008) :
    shapeCast ⟨2, ![64, 11008]⟩ w h (ix2 p q) = w (ix3 p (grpOf q) (laneOf q)) :=
  shapeCast_apply w h (ix2 p q) (ix3 p (grpOf q) (laneOf q)) (by
    rw [Shape.rowMajor_val_two, Shape.rowMajor_val_three]
    show (p.val * 86 + q.val / 128) * 128 + q.val % 128 = p.val * 11008 + q.val
    omega)

/-- A per-group quantity repeated along the lanes, at `(p, g, l)`: the group's number. -/
theorem lanes_apply {α : Type} (v : (⟨2, ![64, 86]⟩ : Shape).Idx → α)
    (h1 : (⟨2, ![64, 86]⟩ : Shape).ShapeCasts ⟨3, ![64, 86, 1]⟩)
    (h3 : (⟨3, ![64, 86, 1]⟩ : Shape).Broadcasts ⟨3, ![64, 86, 128]⟩) (p : Fin 64) (g : Fin 86) (l : Fin 128) :
    broadcastTo ⟨3, ![64, 86, 128]⟩ (shapeCast ⟨3, ![64, 86, 1]⟩ v h1) h3 (ix3 p g l) = v (ix2 p g) := by
  refine (broadcastTo_apply _ h3 (ix3 p g l) (ix3 p g (0 : Fin 1)) (fun a => ?_)).trans ?_
  · match a with
    | ⟨0, _⟩ => show p.val = if (64 : Nat) = 1 then 0 else p.val; rw [if_neg (by decide)]
    | ⟨1, _⟩ => show g.val = if (86 : Nat) = 1 then 0 else g.val; rw [if_neg (by decide)]
    | ⟨2, _⟩ => show (0 : Nat) = if (1 : Nat) = 1 then 0 else l.val; rw [if_pos rfl]
  · exact shapeCast_apply v h1 (ix3 p g (0 : Fin 1)) (ix2 p g) (by
      rw [Shape.rowMajor_val_two, Shape.rowMajor_val_three]
      show p.val * 86 + g.val = (p.val * 86 + g.val) * 1 + 0
      omega)

/-! ## The extremes of a group -/

/-- The source index over `(p, g)` with lane `l` inserted is `(p, g, l)`. -/
theorem lift_lane (h : (⟨3, ![64, 86, 128]⟩ : Shape).Reduces [2] ⟨2, ![64, 86]⟩) (p : Fin 64) (g : Fin 86) (l : Fin 128) :
    h.lift (ix2 p g) l = ix3 p g l := by
  funext a
  match a with
  | ⟨0, _⟩ => exact Fin.ext rfl
  | ⟨1, _⟩ => exact Fin.ext rfl
  | ⟨2, _⟩ => exact Fin.ext rfl

/-- The minimum over the lanes of group `(p, g)`: the fold of `min` from the accumulator's value over the 128 lanes. -/
theorem lanes_min (src : FVec Ideal ⟨3, ![64, 86, 128]⟩ .f32) (acc : BitVec FTy.f32.bits)
    (h : (⟨3, ![64, 86, 128]⟩ : Shape).Reduces [2] ⟨2, ![64, 86]⟩) (hφ : FKind.Formats .f32)
    (hacc : acc = FKind.minimumf.neutral .f32 hφ) (p : Fin 64) (g : Fin 86) :
    multiReduction .minimumf [2] ⟨2, ![64, 86]⟩ src acc h hφ hacc (ix2 p g)
      = (Finset.univ : Finset (Fin 128)).fold min (Ideal.ofBits .f32 acc) fun l => src (ix3 p g l) := by
  rw [multiReduction_minimumf_eq_fold, h.fold_filter_drop_single, fold_minimumf]
  exact Finset.fold_congr fun l _ => congrArg src (lift_lane h p g l)

/-- The maximum over the lanes of group `(p, g)`. -/
theorem lanes_max (src : FVec Ideal ⟨3, ![64, 86, 128]⟩ .f32) (acc : BitVec FTy.f32.bits)
    (h : (⟨3, ![64, 86, 128]⟩ : Shape).Reduces [2] ⟨2, ![64, 86]⟩) (hφ : FKind.Formats .f32)
    (hacc : acc = FKind.maximumf.neutral .f32 hφ) (p : Fin 64) (g : Fin 86) :
    multiReduction .maximumf [2] ⟨2, ![64, 86]⟩ src acc h hφ hacc (ix2 p g)
      = (Finset.univ : Finset (Fin 128)).fold max (Ideal.ofBits .f32 acc) fun l => src (ix3 p g l) := by
  rw [multiReduction_maximumf_eq_fold, h.fold_filter_drop_single, fold_maximumf]
  exact Finset.fold_congr fun l _ => congrArg src (lift_lane h p g l)

end Cert.GroupQuant

end
-- ==== Proof.Tiles.lean ====
/-
  The array as 64 tiles of 64 rows, and the result tile by tile.

  Tile `t` of the array holds rows `64·t … 64·t + 63`.  The bound factors, one per group in row-major order of
  (row, group), are cut the same way: tile `t` of them holds, at `(p, g)`, the factor of group `(64·t + p)·86 + g`.
  Quantizing entry `(p, q)` of tile `t` against its group's extremes within the tile and the tile's bound factors is
  quantizing entry `(64·t + p, q)` of the whole array against its group: a group never leaves its row, so it never
  leaves its tile.
-/
import proofs.«156063_j23098334118321_1_alg».proof.Proof.QuantSpec
import proofs.«156063_j23098334118321_1_alg».proof.Proof.TileReads

noncomputable section

namespace Cert.GroupQuant

open Idealize.ShloMosaic Idealize.ShloMosaic.ValueIdx

/-- The smallest and the largest entry of group `g` of row `p` of a tile. -/
def tileMin (x0 : (⟨2, ![64, 11008]⟩ : Shape).Idx → EReal) (p : Fin 64) (g : Fin 86) : EReal :=
  (Finset.univ : Finset (Fin 128)).fold min cTop fun l => x0 (ix2 p (colOf g l))
def tileMax (x0 : (⟨2, ![64, 11008]⟩ : Shape).Idx → EReal) (p : Fin 64) (g : Fin 86) : EReal :=
  (Finset.univ : Finset (Fin 128)).fold max cBot fun l => x0 (ix2 p (colOf g l))

/-- Row `p` of tile `t` is row `64·t + p` of the array. -/
def rowOf (t p : Fin 64) : Fin 4096 := ⟨t.val * 64 + p.val, by have := t.isLt; have := p.isLt; omega⟩

/-- Group `g` of row `r` is group number `r·86 + g`. -/
def grpNo (r : Fin 4096) (g : Fin 86) : Fin 352256 := ⟨r.val * 86 + g.val, by have := r.isLt; have := g.isLt; omega⟩

/-- Tile `t` of the array. -/
def rowTile (X : (⟨2, ![4096, 11008]⟩ : Shape).Idx → EReal) (t : Fin 64) : (⟨2, ![64, 11008]⟩ : Shape).Idx → EReal :=
  fun j => X (ix2 (rowOf t (j 0)) (j 1))

/-- Tile `t` of a column of per-group bound factors. -/
def facTile (U : (⟨2, ![352256, 1]⟩ : Shape).Idx → EReal) (t : Fin 64) : (⟨2, ![64, 86]⟩ : Shape).Idx → EReal :=
  fun j => U (ix2 (grpNo (rowOf t (j 0)) (j 1)) (0 : Fin 1))

/-- TILE BY TILE: entry `(p, q)` of tile `t`, quantized within the tile, is entry `(64·t + p, q)` of the result. -/
theorem tile_quant (X : (⟨2, ![4096, 11008]⟩ : Shape).Idx → EReal) (U L : (⟨2, ![352256, 1]⟩ : Shape).Idx → EReal)
    (t p : Fin 64) (q : Fin 11008) :
    quant (rowTile X t (ix2 p q)) (tileMin (rowTile X t) p (grpOf q)) (tileMax (rowTile X t) p (grpOf q))
        (facTile U t (ix2 p (grpOf q))) (facTile L t (ix2 p (grpOf q)))
      = G X U L (ix2 (rowOf t p) q) := rfl

end Cert.GroupQuant

end
-- ==== Proof.TilePayload.lean ====
/-
  What one tile's body stores, entry by entry.

  The body of a grid step reads a tile `x0` of 64 rows and the two tiles `x1`, `x2` of per-group bound factors
  (upper, lower), cuts each row into 86 groups of 128 lanes, takes each group's minimum and maximum, forms the group's
  scale and zero point, repeats them along the lanes, and quantizes every entry.  Read at entry `(p, q)` of the tile
  the stored value is the scalar function `quant` of that entry, of the extremes of its group `q / 128` in row `p`,
  and of the group's two bound factors.
-/
import proofs.«156063_j23098334118321_1_alg».proof.Proof.Gen.KernelIdeal.Skeleton
import proofs.«156063_j23098334118321_1_alg».proof.Proof.QuantSpec
import proofs.«156063_j23098334118321_1_alg».proof.Proof.TileReads
import proofs.«156063_j23098334118321_1_alg».proof.Proof.Tiles

noncomputable section

namespace Cert.GroupQuant

open Idealize.ShloMosaic Idealize.ShloMosaic.ValueIdx Cert.KernelIdeal Cert.KernelIdeal.Gen

/-- Rounding and the logistic function act entry by entry. -/
theorem roundeven_apply {s : Shape} (v : FVec Ideal s .f32) (i : s.Idx) : roundeven v i = rnd (v i) := rfl
theorem logistic_apply {s : Shape} (v : FVec Ideal s .f32) (i : s.Idx) : logistic v i = Ideal.logistic (v i) := rfl

/-- Lane `q % 128` of group `q / 128` is column `q`. -/
theorem colOf_grp_lane (q : Fin 11008) : colOf (grpOf q) (laneOf q) = q :=
  Fin.ext (by show q.val / 128 * 128 + q.val % 128 = q.val; omega)

/-- THE BODY'S STORED VALUE at entry `(p, q)` of the tile. -/
theorem stored_apply [Cert.KernelIdeal.Facts] (x0 : Vec Ideal S64x11008 .f32) (x1 x2 : Vec Ideal S64x86 .f32) (p : Fin 64) (q : Fin 11008) :
    k0_pay1 (F := Ideal) x0 x1 x2 (ix2 p q)
      = quant (x0 (ix2 p q)) (tileMin x0 p (grpOf q)) (tileMax x0 p (grpOf q)) (x1 (ix2 p (grpOf q))) (x2 (ix2 p (grpOf q))) := by
  unfold k0_pay1
  dsimp only
  refine (tile_apply _ _ p q).trans ?_
  simp only [mulf_apply, subf_apply, addf_apply, divf_apply, minimumf_apply, maximumf_apply, broadcast_apply,
    roundeven_apply, logistic_apply, lanes_apply, cube_apply, colOf_grp_lane, shapeCast_self, Ideal.ofBits_def]
  have hmin := lanes_min (shapeCast S64x86x128 x0 shapeCasts_S64x11008_S64x86x128) (0x7F800000#32) reduces_S64x86x128_S64x86 (.inl rfl) rfl p (grpOf q)
  have hmax := lanes_max (shapeCast S64x86x128 x0 shapeCasts_S64x11008_S64x86x128) (0xFF800000#32) reduces_S64x86x128_S64x86 (.inl rfl) rfl p (grpOf q)
  simp only [cube_apply] at hmin hmax
  rw [hmin, hmax]
  simp only [zero_pattern_sub]
  rfl

/-- ONE GRID STEP: run on tile `t` of the array and of the two bound factors, the body stores tile `t` of `G`. -/
theorem stored_tile [Cert.KernelIdeal.Facts] (X : (⟨2, ![4096, 11008]⟩ : Shape).Idx → EReal)
    (U L : (⟨2, ![352256, 1]⟩ : Shape).Idx → EReal) (t : Fin 64) (j : S64x11008.Idx) :
    k0_pay1 (F := Ideal) (rowTile X t) (facTile U t) (facTile L t) j = G X U L (ix2 (rowOf t (j 0)) (j 1)) := by
  obtain ⟨p, q, rfl⟩ : ∃ (p : Fin 64) (q : Fin 11008), j = ix2 p q := ⟨j 0, j 1, eq_ix2 j⟩
  exact (stored_apply (rowTile X t) (facTile U t) (facTile L t) p q).trans (tile_quant X U L t p q)

end Cert.GroupQuant

end
-- ==== Proof.KernelValue.lean ====
/-
  The kernel's result array.

  The grid has 64 steps; step `t` reads tile `t` (rows `64·t … 64·t + 63`) of the array and of the two bound-factor
  arrays, which the host laid out as 4096 × 86 beforehand (entry `(r, g)` the factor of group `r·86 + g`), and writes
  tile `t` of the output.  The body stores tile `t` of `G` (one grid step, `stored_tile`), the 64 tiles cover every
  row, so the output array ends as `G` of the three arguments.
-/
import proofs.«156063_j23098334118321_1_alg».proof.Proof.Gen.KernelIdeal.Value
import proofs.«156063_j23098334118321_1_alg».proof.Proof.TilePayload
import Idealize.ShloMosaic.Lib.Pipeline.Value
import Idealize.ShloMosaic.Lib.StableHlo.Run

set_option maxRecDepth 16384

noncomputable section

namespace Cert.GroupQuant.Kernel

open Cert.KernelIdeal Cert.KernelIdeal.Gen Cert.GroupQuant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays on core `c`. -/
abbrev argX (c : Dev nD) : S4096x11008.Idx → EReal := m ((c : Thread nD τ).loc main_arg0)
abbrev argU (c : Dev nD) : S352256x1.Idx → EReal := m ((c : Thread nD τ).loc main_arg1)
abbrev argL (c : Dev nD) : S352256x1.Idx → EReal := m ((c : Thread nD τ).loc main_arg2)

/-- A grid step as a tile number. -/
def tileNo (t : Fin cfg0.N) : Fin 64 := ⟨t.val, lt_of_lt_of_eq t.isLt N_0⟩

theorem hz : (![0, 0] : Fin 2 → Nat) = fun _ => 0 := funext fun a => by fin_cases a <;> rfl

/-- Every window's block index at step `t` is `(t, 0)`: decided over the 64 steps. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The upper bound factors as the region finds them: the argument laid out as 4096 × 86. -/
theorem V_up (c : Dev nD) :
    (V m c main_v0 : S4096x86.Idx → EReal) = shapeCast S4096x86 (argU m c) shapeCasts_S352256x1_S4096x86 := by
  dsimp only [Gen.V, Gen.hostOps0]; after_results; rfl

/-- The lower bound factors likewise. -/
theorem V_low (c : Dev nD) :
    (V m c main_v1 : S4096x86.Idx → EReal) = shapeCast S4096x86 (argL m c) shapeCasts_S352256x1_S4096x86 := by
  dsimp only [Gen.V, Gen.hostOps0]; after_results; rfl

/-- Step `t`'s block of the array is tile `t`. -/
theorem blockX (c : Dev nD) (t : Fin cfg0.N) :
    (iblk m c 0 t : Vec Ideal S64x11008 .f32) = rowTile (argX m c) (tileNo t) := by
  obtain ⟨e0, e1, -⟩ := idx_facts t
  funext j
  show V m c main_arg0 (((cfg0.win 0).blk t).view.emb j) = argX m c (ix2 (rowOf (tileNo t) (j 0)) (j 1))
  rw [V_main_arg0]
  refine congrArg _ (funext fun a => Fin.ext ?_)
  match a with
  | ⟨0, _⟩ => show win0_0.index t (0 : Fin 2) * 64 + 1 * (j 0).val = t.val * 64 + (j 0).val; omega
  | ⟨1, _⟩ => show win0_0.index t (1 : Fin 2) * 11008 + 1 * (j 1).val = (j 1).val; omega

/-- Step `t`'s block of the upper bound factors is tile `t` of them: the host's 4096 × 86 layout read back. -/
theorem blockU (c : Dev nD) (t : Fin cfg0.N) :
    (iblk m c 1 t : Vec Ideal S64x86 .f32) = facTile (argU m c) (tileNo t) := by
  obtain ⟨-, -, e0, e1, -⟩ := idx_facts t
  funext j
  show V m c main_v0 (((cfg0.win 1).blk t).view.emb j) = argU m c (ix2 (grpNo (rowOf (tileNo t) (j 0)) (j 1)) (0 : Fin 1))
  rw [V_up]
  refine shapeCast_apply _ _ _ _ ?_
  rw [Shape.rowMajor_val_two, Shape.rowMajor_val_two]
  show ((t.val * 64 + (j 0).val) * 86 + (j 1).val) * 1 + 0
    = (win0_1.index t (0 : Fin 2) * 64 + 1 * (j 0).val) * 86 + (win0_1.index t (1 : Fin 2) * 86 + 1 * (j 1).val)
  omega

/-- The lower bound factors likewise. -/
theorem blockL (c : Dev nD) (t : Fin cfg0.N) :
    (iblk m c 2 t : Vec Ideal S64x86 .f32) = facTile (argL m c) (tileNo t) := by
  obtain ⟨-, -, -, -, e0, e1, -⟩ := idx_facts t
  funext j
  show V m c main_v1 (((cfg0.win 2).blk t).view.emb j) = argL m c (ix2 (grpNo (rowOf (tileNo t) (j 0)) (j 1)) (0 : Fin 1))
  rw [V_low]
  refine shapeCast_apply _ _ _ _ ?_
  rw [Shape.rowMajor_val_two, Shape.rowMajor_val_two]
  show ((t.val * 64 + (j 0).val) * 86 + (j 1).val) * 1 + 0
    = (win0_2.index t (0 : Fin 2) * 64 + 1 * (j 0).val) * 86 + (win0_2.index t (1 : Fin 2) * 86 + 1 * (j 1).val)
  omega

/-- WHAT STEP `t` WRITES BACK is block `t` of `G` of the three arguments. -/
theorem flushed_eq (c : Dev nD) (t : Fin cfg0.N) :
    (dats m 0 c).flushed 3 t = ((cfg0.win 3).blk t).view.read (Elt Ideal) (G (argX m c) (argU m c) (argL m c)) := by
  obtain ⟨-, -, -, -, -, -, e0, e1⟩ := idx_facts t
  rw [Cert.KernelIdeal.Value.flushed3]
  unfold out0_3
  rw [View.canon_unit_zero hz]
  simp only [View.ld_unit_zero (S := S64x11008) hz, View.ld_unit_zero (S := S64x86) hz]
  rw [blockX, blockU, blockL]
  funext j
  refine (stored_tile (argX m c) (argU m c) (argL m c) (tileNo t) j).trans ?_
  show G (argX m c) (argU m c) (argL m c) (ix2 (rowOf (tileNo t) (j 0)) (j 1))
    = G (argX m c) (argU m c) (argL m c) (((cfg0.win 3).blk t).view.emb j)
  refine congrArg _ (funext fun a => Fin.ext ?_)
  match a with
  | ⟨0, _⟩ => show t.val * 64 + (j 0).val = win0_3.index t (0 : Fin 2) * 64 + 1 * (j 0).val; omega
  | ⟨1, _⟩ => show (j 1).val = win0_3.index t (1 : Fin 2) * 11008 + 1 * (j 1).val; omega

/-- An index of the output is in step `t`'s block iff each coordinate is in the block's range. -/
theorem mem_blk (t : Fin cfg0.N) (i : S4096x11008.Idx) :
    i ∈ ((cfg0.win 3).blk t).view.set ↔ ∀ a : Fin 2, win0_3.index t a * S64x11008.size a ≤ (i a).val ∧ (i a).val < win0_3.index t a * S64x11008.size a + S64x11008.size a := by
  show i ∈ ((View.whole main_v2).slice (win0_3.rect t)).set ↔ _
  rw [View.set_slice_whole, Rect.mem_set_unit]
  exact Iff.rfl

/-- THE TILES COVER THE ARRAY: row `r` lies in the block of step `r / 64`. -/
theorem cover (i : S4096x11008.Idx) : ∃ t : Fin cfg0.N, (cfg0.win 3).flush t = true ∧ i ∈ ((cfg0.win 3).blk t).view.set := by
  have hi0 : (i 0).val < 4096 := (i 0).isLt
  have hi1 : (i 1).val < 11008 := (i 1).isLt
  let t : Fin cfg0.N := ⟨(i 0).val / 64, by rw [show cfg0.N = 64 from N_0]; omega⟩
  obtain ⟨-, -, -, -, -, -, e0, e1⟩ := idx_facts t
  have ht : t.val = (i 0).val / 64 := rfl
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 11008 ≤ (i 1).val ∧ (i 1).val < win0_3.index t (1 : Fin 2) * 11008 + 11008; omega

/-- THE OUTPUT ARRAY after the run is `G` of the three arguments. -/
theorem final (c : Dev nD) : (dats m 0 c).arrAt 3 cfg0.N = G (argX m c) (argU m c) (argL m c) :=
  (dats m 0 c).arrAt_eq_of_cover 3 (G (argX m c) (argU m c) (argL m c)) (fun t _ => flushed_eq m c t) cover

/-- THE RUN: every weakly fair execution ends with the output at `G` of the arguments and the arguments unchanged. -/
theorem run : θ_run defs (onTc (τ := τ) (main (F := Ideal))) ⟨m, fun _ => 0, ρ⟩ fun r => ∀ c : Dev nD,
      r.2.mem ((c : Thread nD τ).loc main_v2) = G (argX m c) (argU m c) (argL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.GroupQuant.Kernel

end
-- ==== Proof.RefValue.lean ====
/-
  What the reference computes, entry by entry.

  The reference views the array as 352256 groups of 128 lanes: lane `l` of group `n` is the entry at row-major position
  `n·128 + l`, that is row `n / 86`, column `(n % 86)·128 + l`.  It reduces every group to its minimum and maximum,
  forms the group's scale and zero point from them and the group's bound factors, and quantizes every lane; the
  rounding of an entry divided by the scale is written straight-through, `q + (round q − q)`.  Laid back out as
  4096 × 11008, entry `(r, c)` comes from lane `c % 128` of group `r·86 + c / 128`.  For finite inputs this is the
  function `G`.
-/
import proofs.«156063_j23098334118321_1_alg».proof.Proof.Gen.ReferenceIdeal.Read
import proofs.«156063_j23098334118321_1_alg».proof.Proof.QuantSpec
import proofs.«156063_j23098334118321_1_alg».proof.Proof.TileReads
import Idealize.ShloMosaic.PureOps.Reduce
import Idealize.ShloMosaic.PureOps.Ideal.Laws

noncomputable section

namespace Cert.GroupQuant

open Idealize.ShloMosaic Idealize.ShloMosaic.ValueIdx Cert.ReferenceIdeal Cert.ReferenceIdeal.Gen Cert.ReferenceIdeal.Read

variable [Cert.ReferenceIdeal.Facts]
variable (X : S4096x11008.Idx → EReal) (U L : S352256x1.Idx → EReal)

/-- The scale of group `k`, as the reference spells it, is `scale` of the scaled extremes. -/
theorem ref_scale (k : S352256x1.Idx) :
    val_main_v22 (F := Ideal) X U L k
      = scale (Ideal.logistic (L k) * val_main_v2 (F := Ideal) X k) (Ideal.logistic (U k) * val_main_v4 (F := Ideal) X k) := by
  simp only [val_main_v22_apply, val_main_call0_v4_apply, val_main_call0_v3_apply, val_main_cst_7_apply,
    val_main_call0_v2_apply, val_main_call0_v1_apply, val_main_call0_v0_apply, val_main_cst_6_apply,
    val_main_v21_apply, val_main_v20_apply, val_main_cst_5_apply, val_main_v19_apply, val_main_v11_apply,
    val_main_v18_apply, val_main_v10_apply, val_main_v17_apply, val_main_v9_apply, val_main_v16_apply,
    val_main_cst_2_apply, val_main_cst_4_apply, val_main_v8_apply, val_main_v15_apply, val_main_v7_apply,
    val_main_v14_apply, val_main_cst_1_apply, val_main_cst_3_apply, val_main_v6_apply, val_main_v13_apply,
    val_main_v5_apply, val_main_v12_apply,
    Ideal.minimumf_def, Ideal.maximumf_def, Ideal.hostDivf_def, Ideal.subf_def, Ideal.mulf_def, Ideal.addf_def,
    Ideal.hostUnary_exp_def, Ideal.hostNegf_def, Ideal.negf_def, Ideal.ofBits_def, logistic_spelled]
  rfl

/-- The zero point of group `k`, as the reference spells it (the negation a `negate`), is `zeroPt` of the scaled
    minimum and the group's scale. -/
theorem ref_zeroPt (k : S352256x1.Idx) :
    val_main_v26 (F := Ideal) X U L k
      = zeroPt (Ideal.logistic (L k) * val_main_v2 (F := Ideal) X k) (val_main_v22 (F := Ideal) X U L k) := by
  simp only [val_main_v26_apply, val_main_v25_apply, val_main_call1_v4_apply, val_main_call1_v3_apply, val_main_cst_9_apply,
    val_main_call1_v2_apply, val_main_call1_v1_apply, val_main_call1_v0_apply, val_main_cst_8_apply,
    val_main_v24_apply, val_main_v23_apply, val_main_v18_apply, val_main_v17_apply, val_main_v16_apply,
    val_main_cst_4_apply, val_main_v15_apply, val_main_v14_apply, val_main_cst_3_apply, val_main_v13_apply,
    val_main_v12_apply,
    Ideal.minimumf_def, Ideal.maximumf_def, Ideal.hostDivf_def, Ideal.mulf_def, Ideal.addf_def,
    Ideal.hostUnary_exp_def, Ideal.hostUnary_roundeven_def, Ideal.hostNegf_def, Ideal.negf_def, Ideal.ofBits_def,
    logistic_spelled]
  rfl

/-- One lane of a group, as the reference spells it: the entry divided by the scale, rounded straight-through,
    shifted by the zero point, clipped to four bits, shifted back and rescaled. -/
theorem ref_lane (j : S352256x128.Idx) :
    val_main_v38 (F := Ideal) X U L j
      = (min cQ (max cZ ((Ideal.div (val_main_v0 (F := Ideal) X j) (val_main_v22 (F := Ideal) X U L (idx_main_v27 j))
            + (rnd (Ideal.div (val_main_v0 (F := Ideal) X j) (val_main_v22 (F := Ideal) X U L (idx_main_v27 j)))
                - Ideal.div (val_main_v0 (F := Ideal) X j) (val_main_v22 (F := Ideal) X U L (idx_main_v27 j))))
            + val_main_v26 (F := Ideal) X U L (idx_main_v27 j)))
          - val_main_v26 (F := Ideal) X U L (idx_main_v27 j)) * val_main_v22 (F := Ideal) X U L (idx_main_v27 j) := by
  simp only [val_main_v38_apply, val_main_v37_apply, val_main_v36_apply, val_main_v35_apply, val_main_v34_apply,
    val_main_call4_v4_apply, val_main_call4_v3_apply, val_main_cst_11_apply, val_main_call4_v2_apply,
    val_main_call4_v1_apply, val_main_call4_v0_apply, val_main_cst_10_apply, val_main_v33_apply, val_main_v32_apply,
    val_main_v31_apply, val_main_v30_apply, val_main_v29_apply, val_main_v28_apply, val_main_v27_apply,
    Ideal.minimumf_def, Ideal.maximumf_def, Ideal.hostDivf_def, Ideal.subf_def, Ideal.mulf_def, Ideal.addf_def,
    Ideal.hostUnary_roundeven_def, Ideal.ofBits_def]

/-! ## The groups' extremes and the layout -/

/-- The group a lane index belongs to, as a one-column index. -/
theorem grp_of_entry (i : S4096x11008.Idx) :
    idx_main_v27 (idx_main_v39 i) = ix2 (grp (i 0) (i 1)) (0 : Fin 1) := by
  funext a
  match a with
  | ⟨0, _⟩ =>
    refine Fin.ext ?_
    show ((i 0).val * 11008 + (i 1).val) / 128 = (i 0).val * 86 + (i 1).val / 128
    omega
  | ⟨1, _⟩ => exact Fin.ext rfl

/-- Laying the groups back out and cutting into groups again returns each entry to its place. -/
theorem entry_roundtrip (i : S4096x11008.Idx) : idx_main_v0 (idx_main_v39 i) = i := by
  have h0 : (i 0).val < 4096 := (i 0).isLt
  have h1 : (i 1).val < 11008 := (i 1).isLt
  funext a
  match a with
  | ⟨0, _⟩ =>
    refine Fin.ext ?_
    show (((i 0).val * 11008 + (i 1).val) / 128 * 128 + ((i 0).val * 11008 + (i 1).val) % 128) / 11008 = (i 0).val
    omega
  | ⟨1, _⟩ =>
    refine Fin.ext ?_
    show (((i 0).val * 11008 + (i 1).val) / 128 * 128 + ((i 0).val * 11008 + (i 1).val) % 128) % 11008 = (i 1).val
    omega

/-- Lane `l` of the group of `(r, c)` is the entry at row `r`, column `c / 128 · 128 + l`. -/
theorem lane_entry (r : Fin 4096) (c : Fin 11008) (l : Fin 128) (j : S352256x128.Idx)
    (hj0 : (j 0).val = (grp r c).val) (hj1 : (j 1).val = l.val) : idx_main_v0 j = ix2 r (laneCol c l) := by
  have h0 : r.val < 4096 := r.isLt
  have h1 : c.val < 11008 := c.isLt
  have h2 : l.val < 128 := l.isLt
  funext a
  match a with
  | ⟨0, _⟩ =>
    refine Fin.ext ?_
    show ((j 0).val * 128 + (j 1).val) / 11008 = r.val
    rw [hj0, hj1]; show ((r.val * 86 + c.val / 128) * 128 + l.val) / 11008 = r.val
    omega
  | ⟨1, _⟩ =>
    refine Fin.ext ?_
    show ((j 0).val * 128 + (j 1).val) % 11008 = c.val / 128 * 128 + l.val
    rw [hj0, hj1]; show ((r.val * 86 + c.val / 128) * 128 + l.val) % 11008 = c.val / 128 * 128 + l.val
    omega

/-- The reference's group minimum at the group of `(r, c)` is the fold over that group's 128 entries of row `r`. -/
theorem ref_min (r : Fin 4096) (c : Fin 11008) :
    val_main_v2 (F := Ideal) X (ix2 (grp r c) (0 : Fin 1)) = grpMin X r c := by
  have hR : S352256x128.Reduces [1] S352256 := by decide
  rw [val_main_v2_apply]
  unfold val_main_v1
  rw [Host.reduce_eq_fold_single FloatOps.minimumf _ _ reducesTo_S352256x128_S352256_d1 hR h_S_, fold_minimumf]
  unfold grpMin
  refine Finset.fold_congr fun l _ => ?_
  show val_main_v0 (F := Ideal) X (hR.lift (idx_main_v2 (ix2 (grp r c) (0 : Fin 1))) l) = X (ix2 r (laneCol c l))
  rw [val_main_v0_apply]
  exact congrArg X (lane_entry r c l _ rfl rfl)

/-- The same for the maximum. -/
theorem ref_max (r : Fin 4096) (c : Fin 11008) :
    val_main_v4 (F := Ideal) X (ix2 (grp r c) (0 : Fin 1)) = grpMax X r c := by
  have hR : S352256x128.Reduces [1] S352256 := by decide
  rw [val_main_v4_apply]
  unfold val_main_v3
  rw [Host.reduce_eq_fold_single FloatOps.maximumf _ _ reducesTo_S352256x128_S352256_d1 hR h_S_, fold_maximumf]
  unfold grpMax
  refine Finset.fold_congr fun l _ => ?_
  show val_main_v0 (F := Ideal) X (hR.lift (idx_main_v4 (ix2 (grp r c) (0 : Fin 1))) l) = X (ix2 r (laneCol c l))
  rw [val_main_v0_apply]
  exact congrArg X (lane_entry r c l _ rfl rfl)

/-! ## The reference is `G` -/

/-- THE REFERENCE'S RESULT on finite entries is `G` of the arguments: its straight-through rounding is the rounding
    (`ste`, the entry real and the scale positive and finite), the rest is the same operations on the same numbers. -/
theorem ref_entry (hX : ∀ i, ∃ x : ℝ, X i = (x : EReal)) (i : S4096x11008.Idx) :
    val_main_v39 (F := Ideal) X U L i = G X U L i := by
  obtain ⟨x, hx⟩ := hX i
  rw [val_main_v39_apply, ref_lane, grp_of_entry, val_main_v0_apply, entry_roundtrip, hx,
    ste (ref_scale X U L _ ▸ scale_pos _ _) (ref_scale X U L _ ▸ scale_lt_top _ _) x,
    ref_zeroPt, ref_scale, ref_min X (i 0) (i 1), ref_max X (i 0) (i 1)]
  unfold G quant dequant
  rw [hx]

theorem ref_eq_G (hX : ∀ i, ∃ x : ℝ, X i = (x : EReal)) : val_main_v39 (F := Ideal) X U L = G X U L :=
  funext (ref_entry X U L hX)

end Cert.GroupQuant

end
-- ==== Proof.FiniteEntries.lean ====
/-
  Finite inputs are real numbers.

  The precondition says of each float argument that every entry's absolute value is below `+∞`.  An extended real
  with that property is neither infinity, so it is a real number.  Only the array `x` needs this: its entries are
  divided by a positive finite scale and rounded straight-through.
-/
import proofs.«156063_j23098334118321_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.GroupQuant

open Idealize.ShloMosaic Idealize.ShloMosaic.ValueIdx Cert.Pre_finite_inputs

instance : Subsingleton S_.Idx := ⟨fun a b => funext fun d => d.elim0⟩

/-- An extended real whose absolute value compares below the pattern of `+∞` is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => exact absurd h (by simp [Ideal.cmp])
  | coe r => exact ⟨r, rfl⟩
  | top => exact absurd h (by simp [Ideal.cmp])

/-- Under the precondition every entry of the first argument is a real number. -/
theorem x_real [Cert.Pre_finite_inputs.Facts] (X : FVec Ideal S4096x11008 .f32) (U L : FVec Ideal S352256x1 .f32)
    (h : Cert.Pre_finite_inputs.fn (F := Ideal) X U L = fun _ => 1#1) (i : S4096x11008.Idx) : ∃ r : ℝ, X i = (r : EReal) := by
  have h0 := congrFun h ix0
  dsimp only [Cert.Pre_finite_inputs.fn] at h0
  have h1 := (IntOp.andi_eq_one.1 (IntOp.andi_eq_one.1 h0).1).1
  exact real_of_abs_lt (X i) (Host.reduce_andi_all _ _ _ _ _ h1 i)

end Cert.GroupQuant

end
-- ==== Proof.lean ====
/-
  Per-group four-bit fake quantization: the tiled kernel against the reference.

  Both programs cut a 4096 × 11008 array into groups of 128 consecutive entries of a row, take each group's minimum
  and maximum, scale them by the logistic function of the group's two learnable bound factors, derive the group's
  scale `s = clip((mx − mn)/15, 1e-4, 1e4)` and zero point `z = round(clip(−mn/s, −1e4, 1e4))`, and replace every entry
  `x` by `(clip(round(x/s) + z, 0, 15) − z)·s` (Proof/QuantSpec.lean: the function `G`).

  The kernel works on 64 tiles of 64 rows; a group never leaves its row, so a tile holds whole groups, and one grid
  step stores its tile of `G` (Proof/TileReads.lean, Proof/Tiles.lean, Proof/TilePayload.lean); the tiles cover the
  array (Proof/KernelValue.lean).  The reference works on all 352256 groups at once and writes the rounding of `x/s`
  straight-through, `q + (round q − q)`; the scale is a positive real whatever the inputs, so for a finite `x` the
  quotient is real and the two roundings agree (Proof/RefValue.lean, with Proof/FiniteEntries.lean for "finite means
  real").  The other differences are spelling: the logistic function written out as `1/(1 + e^(−u))`, and `0 − mn`
  for `−mn`.  No rewrite was applied to the kernel when it was idealized, so that claim is trivially true.
-/
import proofs.«156063_j23098334118321_1_alg».proof.Defs
import proofs.«156063_j23098334118321_1_alg».proof.Proof.Gen.Kernel
import proofs.«156063_j23098334118321_1_alg».proof.Proof.Gen.Kernel.Skeleton
import proofs.«156063_j23098334118321_1_alg».proof.Proof.Gen.Kernel.Launch
import proofs.«156063_j23098334118321_1_alg».proof.Proof.Gen.Kernel.Points
import proofs.«156063_j23098334118321_1_alg».proof.Proof.Gen.Kernel.Frame
import proofs.«156063_j23098334118321_1_alg».proof.Proof.Gen.KernelIdeal
import proofs.«156063_j23098334118321_1_alg».proof.Proof.Gen.KernelIdeal.Skeleton
import proofs.«156063_j23098334118321_1_alg».proof.Proof.Gen.KernelIdeal.Launch
import proofs.«156063_j23098334118321_1_alg».proof.Proof.Gen.KernelIdeal.Points
import proofs.«156063_j23098334118321_1_alg».proof.Proof.Gen.KernelIdeal.Frame
import proofs.«156063_j23098334118321_1_alg».proof.Proof.Gen.ReferenceIdeal
import proofs.«156063_j23098334118321_1_alg».proof.Proof.Gen.Pre_finite_inputs
import proofs.«156063_j23098334118321_1_alg».proof.Proof.Gen.KernelIdeal.Value
import proofs.«156063_j23098334118321_1_alg».proof.Proof.Gen.ReferenceIdeal.Run
import proofs.«156063_j23098334118321_1_alg».proof.Proof.Gen.ReferenceIdeal.Read
import proofs.«156063_j23098334118321_1_alg».proof.Proof.QuantSpec
import proofs.«156063_j23098334118321_1_alg».proof.Proof.KernelValue
import proofs.«156063_j23098334118321_1_alg».proof.Proof.RefValue
import proofs.«156063_j23098334118321_1_alg».proof.Proof.FiniteEntries
import Idealize.ShloMosaic.Adequacy
import Idealize.ShloMosaic.Init

noncomputable section

namespace Cert.Proof

open Idealize.ShloMosaic Idealize.SL.Sem Cert.GroupQuant

/-- The kernel as printed terminates without a fault and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs both programs end with `G` of the three arguments in their result. -/
theorem algebraic : Cert.algebraic_KernelIdeal_ReferenceIdeal := by
  intro m ρ m' ρ' hpre hagree
  refine ⟨fun c => G (Kernel.argX m c) (Kernel.argU m c) (Kernel.argL m c), Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2]
  exact ref_eq_G _ _ _ (x_real _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
